-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x16 : Shape := ⟨2, ![800000, 16]⟩
abbrev S800000x128 : Shape := ⟨2, ![800000, 128]⟩
abbrev S144x128 : Shape := ⟨2, ![144, 128]⟩
abbrev S128 : Shape := ⟨1, ![128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S800000x128 : S_.BroadcastsInDim S800000x128 (![] : Fin 0 → Fin S800000x128.rank)
  reducesTo_S800000x128_S_d0_1 : S800000x128.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128x128 .f32) (main_arg6 : FVec F S128 .f32) (main_v13 : IVec S_ 1) (main_v16 : IVec S144x128 1) : IVec S_ 1 :=
  let main_c_5 : IVec S_ 1 := constantI S_ 1 1#1
  let main_v17 : IVec S_ 1 := (fun x v => Host.reduce IntOp.andi x v reducesTo_S144x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S800000x16 .f32) (main_arg2 : FVec F S800000x128 .f32) (main_arg3 : FVec F S144x128 .f32) (main_arg4 : FVec F S128 .f32) (main_arg5 : FVec F S128x128 .f32) (main_arg6 : FVec F S128 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S800000x128 .f32 := Host.absf main_arg2
  let main_cst_2 : FVec F S_ .f32 := constant S_ .f32 0x7F800000#32
  let main_v10 : FVec F S800000x128 .f32 := broadcastInDim S800000x128 ![] bcast_S_S800000x128 main_cst_2
  let main_v11 : IVec S800000x128 1 := cmpf .olt main_v9 main_v10
  let main_c_3 : IVec S_ 1 := constantI S_ 1 1#1
  let main_v12 : IVec S_ 1 := (fun x v => Host.reduce IntOp.andi x v reducesTo_S800000x128_S_d0_1 h_S_) main_v11 main_c_3
  let main_v13 : IVec S_ 1 := andi main_v8 main_v12
  let main_v14 : FVec F S144x128 .f32 := Host.absf main_arg3
  let main_cst_4 : FVec F S_ .f32 := constant S_ .f32 0x7F800000#32
  let main_v15 : FVec F S144x128 .f32 := broadcastInDim S144x128 ![] bcast_S_S144x128 main_cst_4
  let main_v16 : IVec S144x128 1 := cmpf .olt main_v14 main_v15
  fn_part1 (F := F) main_arg4 main_arg5 main_arg6 main_v13 main_v16
-- ==== Kernel.lean ====
abbrev S50000x128 : Shape := ⟨2, ![50000, 128]⟩
abbrev S800000x16 : Shape := ⟨2, ![800000, 16]⟩
abbrev S800000x128 : Shape := ⟨2, ![800000, 128]⟩
abbrev S144x128 : Shape := ⟨2, ![144, 128]⟩
abbrev S128 : Shape := ⟨1, ![128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S16x128 : Shape := ⟨2, ![16, 128]⟩
abbrev S6400x128 : Shape := ⟨2, ![6400, 128]⟩
abbrev S6400x16 : Shape := ⟨2, ![6400, 16]⟩
abbrev S1x128 : Shape := ⟨2, ![1, 128]⟩

abbrev nBuf : Space → Nat
  | .hbm => 34
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000x128, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S128x128, .f32⟩
  | .hbm, ⟨32, _⟩ => ⟨S16x128, .f32⟩
  | .hbm, ⟨33, _⟩ => ⟨S800000x128, .f32⟩
  | .local _ .vmem, ⟨0, _⟩ => ⟨S6400x128, .f32⟩
  | .local _ .vmem, ⟨1, _⟩ => ⟨S6400x128, .f32⟩
  | .local _ .vmem, ⟨2, _⟩ => ⟨S6400x16, .f32⟩
  | .local _ .vmem, ⟨3, _⟩ => ⟨S6400x16, .f32⟩
  | .local _ .vmem, ⟨4, _⟩ => ⟨S6400x128, .f32⟩
  | .local _ .vmem, ⟨5, _⟩ => ⟨S6400x128, .f32⟩
  | .local _ .vmem, ⟨6, _⟩ => ⟨S6400x128, .f32⟩
  | .local _ .vmem, ⟨7, _⟩ => ⟨S6400x128, .f32⟩
  | .local _ .vmem, ⟨8, _⟩ => ⟨S128x128, .f32⟩
  | .local _ .vmem, ⟨9, _⟩ => ⟨S16x128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S6400x128, .f32⟩
  | .local _ .vmem, ⟨14, _⟩ => ⟨S6400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  slices_S144x128_S128x128_0_0 : S144x128.Slices ![0, 0] S128x128
  slices_S144x128_S16x128_128_0 : S144x128.Slices ![128, 0] S16x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S6400x16_S6400x16_0_0 : ∀ a, (![0, 0] : Fin 2 → Nat) a + S6400x16.size a ≤ S6400x16.size a
  h_S6400x16 : 0 < S6400x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  dot_S6400x16_S16x128_S6400x128_1_0_0_1_n_n_wf : DotDims.WF S6400x16 S16x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S800000x16.size a
  hwx0_1 : ∀ i : grid0.Coords, EltTy.bits .f32 = 32 ∨ (Rect.block (s := S800000x16) S6400x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S800000x128.size a
  hwx0_2 : ∀ i : grid0.Coords, EltTy.bits .f32 = 32 ∨ (Rect.block (s := S800000x128) S6400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S800000x128.size a
  hwx0_3 : ∀ i : grid0.Coords, EltTy.bits .f32 = 32 ∨ (Rect.block (s := S800000x128) S6400x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x128.size a ≤ S800000x128.size a
  hwx0_9 : ∀ i : grid0.Coords, EltTy.bits .f32 = 32 ∨ (Rect.block (s := S800000x128) S6400x128.size (cc0_transform_9 i) (hinb0_9 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x16_S16x128_S6400x128_1_0_0_1_n_n : DotDims S6400x16 S16x128 S6400x128 where
  lhsContracting := [1]
  rhsContracting := [0]
  lhsNonContracting := [0]
  rhsNonContracting := [1]
  lhsBatch := []
  rhsBatch := []
  wf := dot_S6400x16_S16x128_S6400x128_1_0_0_1_n_n_wf

abbrev win0_0 : Pipeline.Window sig grid0 :=
  Pipeline.Window.ofSpec (Memref.whole main_v9) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S6400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S6400x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S6400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x16 : Shape := ⟨2, ![800000, 16]⟩
abbrev S800000x128 : Shape := ⟨2, ![800000, 128]⟩
abbrev S144x128 : Shape := ⟨2, ![144, 128]⟩
abbrev S128 : Shape := ⟨1, ![128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x144 : Shape := ⟨2, ![800000, 144]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000x128, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x144, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S1x128, .f32⟩
  | .hbm, ⟨40, _⟩ => ⟨S800000x128, .f32⟩
  | .hbm, ⟨41, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  concatenates_S800000x128_S800000x16_S800000x144_d1 : Shape.Concatenates [S800000x128, S800000x16] S800000x144 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S800000x144_S144x128_S800000x128_1_0_0_1_n_n_wf : DotDims.WF S800000x144 S144x128 S800000x128 [1] [0] [0] [1] [] []
  dot_S800000x128_S128x128_S800000x128_1_0_0_1_n_n_wf : DotDims.WF S800000x128 S128x128 S800000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.Spec.lean ====
/-
  One round of message passing on a graph, read edge by edge.

  Edge e carries the features of its source node (row e of A, 128 numbers), its own features (row e of Ef, 16 numbers),
  the sum of the messages that arrive at its source node (row e of B) and its own message (row e of M). Its new message
  is a dense layer of the first two laid end to end, plus a dense layer of "what the neighbours sent, less my own":

      new(e, j) = Σ_{c<128} A(e,c)·W(c,j) + Σ_{c<16} Ef(e,c)·W(128+c,j) + Σ_{c<128} (B(e,c) − M(e,c))·Wh(c,j) + bi(j) + bh(j)

  over the extended reals, where W is the 144×128 input weight, Wh the 128×128 hidden weight and bi, bh the two biases.
  `value` is that number with the two bands of W passed apart (rows 0…127 meet the node features, rows 128…143 the edge
  features): `nodeRows W` and `edgeRows W`.

  Two things are proved about it. Row e of the result depends on row e of A, Ef, B and M only (`value_rows`), so a block
  of consecutive edges can be computed from the matching blocks of rows. And the same number comes out when the source
  features and the edge features are first laid end to end into one row of 144 entries which then meets all of W at once,
  the biases added in another order (`value_of_joined`): a sum over 144 positions is the sum over the first 128 plus
  the sum over the last 16, and addition of extended reals is commutative and associative, so no entry need be finite.
-/
import proofs.«161080_j7876970021288_1_alg».proof.Proof.LibSideBySide
import Idealize.ShloMosaic.Lib.ValueIdx
import Idealize.ShloMosaic.Lib.ValueLayout

noncomputable section

namespace EdgeMessage

open Idealize.ShloMosaic Idealize.ShloMosaic.ValueIdx SideBySide

/-- Rows 0 … 127 of the input weight: the band the source node's features meet. -/
def nodeRows (W : FVec Ideal ⟨2, ![144, 128]⟩ .f32) : FVec Ideal ⟨2, ![128, 128]⟩ .f32 :=
  extractStridedSlice ⟨2, ![128, 128]⟩ ![0, 0] W (by decide)

/-- Rows 128 … 143 of the input weight: the band the edge's own features meet. -/
def edgeRows (W : FVec Ideal ⟨2, ![144, 128]⟩ .f32) : FVec Ideal ⟨2, ![16, 128]⟩ .f32 :=
  extractStridedSlice ⟨2, ![16, 128]⟩ ![128, 0] W (by decide)

/-- Row c of the node band is row c of the weight. -/
theorem nodeRows_apply (W : FVec Ideal ⟨2, ![144, 128]⟩ .f32) (c : Fin 128) (j : Fin 128) (k : Fin 144) (hk : k.val = c.val) :
    nodeRows W (ix2 c j) = W (ix2 k j) :=
  slice2_axis0_apply 0 W _ c j k (by omega)

/-- Row c of the edge band is row 128 + c of the weight. -/
theorem edgeRows_apply (W : FVec Ideal ⟨2, ![144, 128]⟩ .f32) (c : Fin 16) (j : Fin 128) (k : Fin 144) (hk : k.val = 128 + c.val) :
    edgeRows W (ix2 c j) = W (ix2 k j) :=
  slice2_axis0_apply 128 W _ c j k hk

variable {R : Nat}

/-- The new message of edge p at feature q, the two bands of the input weight given apart. -/
def value (A : FVec Ideal ⟨2, ![R, 128]⟩ .f32) (Ef : FVec Ideal ⟨2, ![R, 16]⟩ .f32) (B M : FVec Ideal ⟨2, ![R, 128]⟩ .f32)
    (Wn : FVec Ideal ⟨2, ![128, 128]⟩ .f32) (We : FVec Ideal ⟨2, ![16, 128]⟩ .f32) (bi : FVec Ideal ⟨1, ![128]⟩ .f32)
    (Wh : FVec Ideal ⟨2, ![128, 128]⟩ .f32) (bh : FVec Ideal ⟨1, ![128]⟩ .f32) (p : Fin R) (q : Fin 128) : EReal :=
  entry A Wn p q + entry Ef We p q + entry (subf B M) Wh p q + bi (ix1 q) + bh (ix1 q)

/-- All the new messages, as one [R, 128] array. -/
def table (A : FVec Ideal ⟨2, ![R, 128]⟩ .f32) (Ef : FVec Ideal ⟨2, ![R, 16]⟩ .f32) (B M : FVec Ideal ⟨2, ![R, 128]⟩ .f32)
    (Wn : FVec Ideal ⟨2, ![128, 128]⟩ .f32) (We : FVec Ideal ⟨2, ![16, 128]⟩ .f32) (bi : FVec Ideal ⟨1, ![128]⟩ .f32)
    (Wh : FVec Ideal ⟨2, ![128, 128]⟩ .f32) (bh : FVec Ideal ⟨1, ![128]⟩ .f32) : FVec Ideal ⟨2, ![R, 128]⟩ .f32 :=
  fun i => value A Ef B M Wn We bi Wh bh (i 0) (i 1)

theorem table_apply (A : FVec Ideal ⟨2, ![R, 128]⟩ .f32) (Ef : FVec Ideal ⟨2, ![R, 16]⟩ .f32) (B M : FVec Ideal ⟨2, ![R, 128]⟩ .f32)
    (Wn : FVec Ideal ⟨2, ![128, 128]⟩ .f32) (We : FVec Ideal ⟨2, ![16, 128]⟩ .f32) (bi : FVec Ideal ⟨1, ![128]⟩ .f32)
    (Wh : FVec Ideal ⟨2, ![128, 128]⟩ .f32) (bh : FVec Ideal ⟨1, ![128]⟩ .f32) (p : Fin R) (q : Fin 128) :
    table A Ef B M Wn We bi Wh bh (ix2 p q) = value A Ef B M Wn We bi Wh bh p q := rfl

/-- Edge p's message is computed from row p of the four per-edge arrays: if rows p of a, ef, b, mm are rows P of A, Ef, B, M,
    the message of p over the small arrays is the message of P over the large ones. -/
theorem value_rows {r : Nat} (A : FVec Ideal ⟨2, ![R, 128]⟩ .f32) (Ef : FVec Ideal ⟨2, ![R, 16]⟩ .f32) (B M : FVec Ideal ⟨2, ![R, 128]⟩ .f32)
    (a : FVec Ideal ⟨2, ![r, 128]⟩ .f32) (ef : FVec Ideal ⟨2, ![r, 16]⟩ .f32) (b mm : FVec Ideal ⟨2, ![r, 128]⟩ .f32)
    (Wn : FVec Ideal ⟨2, ![128, 128]⟩ .f32) (We : FVec Ideal ⟨2, ![16, 128]⟩ .f32) (bi : FVec Ideal ⟨1, ![128]⟩ .f32)
    (Wh : FVec Ideal ⟨2, ![128, 128]⟩ .f32) (bh : FVec Ideal ⟨1, ![128]⟩ .f32) (P : Fin R) (p : Fin r)
    (hA : ∀ c : Fin 128, a (ix2 p c) = A (ix2 P c)) (hE : ∀ c : Fin 16, ef (ix2 p c) = Ef (ix2 P c))
    (hB : ∀ c : Fin 128, b (ix2 p c) = B (ix2 P c)) (hM : ∀ c : Fin 128, mm (ix2 p c) = M (ix2 P c)) (q : Fin 128) :
    value a ef b mm Wn We bi Wh bh p q = value A Ef B M Wn We bi Wh bh P q := by
  unfold value entry
  have e1 : ∀ c : Fin 128, a (ix2 p c) * Wn (ix2 c q) = A (ix2 P c) * Wn (ix2 c q) := fun c => by rw [hA c]
  have e2 : ∀ c : Fin 16, ef (ix2 p c) * We (ix2 c q) = Ef (ix2 P c) * We (ix2 c q) := fun c => by rw [hE c]
  have e3 : ∀ c : Fin 128, subf b mm (ix2 p c) * Wh (ix2 c q) = subf B M (ix2 P c) * Wh (ix2 c q) := fun c => by
    rw [subf_apply, subf_apply, hB c, hM c]
  rw [Finset.sum_congr rfl fun c _ => e1 c, Finset.sum_congr rfl fun c _ => e2 c, Finset.sum_congr rfl fun c _ => e3 c]

/-- A row of 144 entries against the whole input weight is its first 128 entries against the node band plus its last 16
    against the edge band. -/
theorem entry_joined (J : FVec Ideal ⟨2, ![R, 144]⟩ .f32) (A : FVec Ideal ⟨2, ![R, 128]⟩ .f32) (Ef : FVec Ideal ⟨2, ![R, 16]⟩ .f32)
    (W : FVec Ideal ⟨2, ![144, 128]⟩ .f32) (p : Fin R) (q : Fin 128)
    (hl : ∀ c : Fin 128, J (ix2 p (Fin.castAdd 16 c)) = A (ix2 p c))
    (hr : ∀ c : Fin 16, J (ix2 p (Fin.natAdd 128 c)) = Ef (ix2 p c)) :
    entry J W p q = entry A (nodeRows W) p q + entry Ef (edgeRows W) p q := by
  unfold entry
  rw [show (∑ c : Fin 144, J (ix2 p c) * W (ix2 c q)) = ∑ c : Fin (128 + 16), J (ix2 p c) * W (ix2 c q) from rfl,
    Fin.sum_univ_add]
  refine congrArg₂ (· + ·) (Finset.sum_congr rfl fun c _ => ?_) (Finset.sum_congr rfl fun c _ => ?_)
  · rw [hl c, nodeRows_apply W c q (Fin.castAdd 16 c) rfl]
  · rw [hr c, edgeRows_apply W c q (Fin.natAdd 128 c) rfl]

/-- The message computed the other way round: source and edge features joined into rows of 144 entries that meet the whole
    input weight, the input bias added before the hidden layer's term. -/
theorem value_of_joined (J : FVec Ideal ⟨2, ![R, 144]⟩ .f32) (A : FVec Ideal ⟨2, ![R, 128]⟩ .f32) (Ef : FVec Ideal ⟨2, ![R, 16]⟩ .f32)
    (B M : FVec Ideal ⟨2, ![R, 128]⟩ .f32) (W : FVec Ideal ⟨2, ![144, 128]⟩ .f32) (bi : FVec Ideal ⟨1, ![128]⟩ .f32)
    (Wh : FVec Ideal ⟨2, ![128, 128]⟩ .f32) (bh : FVec Ideal ⟨1, ![128]⟩ .f32) (p : Fin R) (q : Fin 128)
    (hl : ∀ c : Fin 128, J (ix2 p (Fin.castAdd 16 c)) = A (ix2 p c))
    (hr : ∀ c : Fin 16, J (ix2 p (Fin.natAdd 128 c)) = Ef (ix2 p c)) :
    entry J W p q + bi (ix1 q) + entry (subf B M) Wh p q + bh (ix1 q)
      = value A Ef B M (nodeRows W) (edgeRows W) bi Wh bh p q := by
  unfold value
  rw [entry_joined J A Ef W p q hl hr]
  exact congrArg (· + bh (ix1 q)) (add_right_comm _ _ _)

end EdgeMessage

end
-- ==== Proof.Payload.lean ====
/-
  What one grid point computes, entry by entry.

  The body loads a block of 6400 edges — their source features x0, their own features x3, the neighbour sums x5 and the
  messages x7 — and the two bands of the input weight (x10, x13), the hidden weight x16 and the two biases (x23, x27). It
  multiplies on the matrix unit into a zero accumulator three times and adds: x0·x10 + x3·x13 + (x5 − x7)·x16, then the two
  biases, each laid along every row. At the ideal values a narrowing to bf16 changes nothing and a product into a zero
  block is the plain sum over the contracted coordinate, so entry (p, q) of what it stores is `EdgeMessage.value` of the
  loaded blocks at (p, q).
-/
import proofs.«161080_j7876970021288_1_alg».proof.Proof.Gen.KernelIdeal.Skeleton
import proofs.«161080_j7876970021288_1_alg».proof.Proof.Spec
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- A bias vector cast to one row and laid along every row reads, at (p, q), its q-th entry. -/
theorem bias_apply (v : FVec Ideal S128 .f32) (p : Fin 6400) (q : Fin 128) :
    broadcastTo S6400x128 (shapeCast S1x128 v Facts₀.shapeCasts_S128_S1x128) Facts₀.broadcasts_S1x128_S6400x128 (ix2 p q) = v (ix1 q) :=
  (broadcastTo_1b_ab_apply _ _ p q).trans (shapeCast_a_1a_apply v _ 0 q)

/-- The three products and the two biases, term by term. -/
theorem payload_apply (x0 : FVec Ideal S6400x128 .f32) (x3 : FVec Ideal S6400x16 .f32) (x5 x7 : FVec Ideal S6400x128 .f32)
    (x10 : FVec Ideal S128x128 .f32) (x13 : FVec Ideal S16x128 .f32) (x16 : FVec Ideal S128x128 .f32) (x23 x27 : FVec Ideal S128 .f32)
    (p : Fin 6400) (q : Fin 128) :
    k0_pay1 (F := Ideal) x0 x3 x5 x7 x10 x13 x16 x23 x27 (ix2 p q) = EdgeMessage.value x0 x3 x5 x7 x10 x13 x23 x16 x27 p q := by
  unfold k0_pay1
  rw [shapeCast_self, shapeCast_self, shapeCast_self, shapeCast_self]
  simp only [addf_apply]
  unfold EdgeMessage.value
  refine congrArg₂ (· + ·) (congrArg₂ (· + ·) (congrArg₂ (· + ·) (congrArg₂ (· + ·) ?_ ?_) ?_) ?_) ?_
  · exact SideBySide.kernelProduct_apply _ rfl none _ _ p q
  · exact SideBySide.kernelProduct_apply _ rfl none _ _ p q
  · exact SideBySide.kernelProduct_apply _ rfl none _ _ p q
  · exact bias_apply x23 p q
  · exact bias_apply x27 p q

end Cert.KernelIdeal.Hand

end
-- ==== Proof.Blocks.lean ====
/-
  From what each grid point writes to the whole result array.

  Grid point t (of 125) works on edges 6400·t … 6400·t + 6399: the four per-edge inputs are read through the block of
  rows that starts at row 6400·t, the two bands of the input weight, the hidden weight and the two biases are read whole
  at every point, and the point writes rows 6400·t … 6400·t + 6399 of the result. What it writes is
  `EdgeMessage.value` of its blocks (the body's arithmetic, read entry by entry), and a message depends on its own edge's
  rows only, so the block is the matching block of rows of ONE array: `EdgeMessage.table` of the whole inputs. The 125
  blocks of rows cover the 800000 rows, so that array is what the result holds after the run.
-/
import proofs.«161080_j7876970021288_1_alg».proof.Proof.Gen.KernelIdeal.Value
import proofs.«161080_j7876970021288_1_alg».proof.Proof.Payload
import Idealize.ShloMosaic.Lib.Pipeline.Value

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block each window reads or writes at point t: the per-edge windows and the result move down one block of rows per
    point, the weights and biases stay where they are. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-! ## Reading an array through a window's block

Stated for ANY array of the window's shape: which rows a block holds is a matter of the window's index map alone. -/

/-- Window 0 at point t, row p: row 6400·t + p of the array. -/
theorem read_feat (t : Fin cfg0.N) (A : FVec Ideal S800000x128 .f32) (p : Fin 6400) (e : Fin 128) (P : Fin 800000)
    (hP : P.val = 6400 * t.val + p.val) : ((cfg0.win 0).blk t).view.read (Elt Ideal) A (ix2 p e) = A (ix2 P e) := by
  have h0 : win0_0.index t (0 : Fin 2) = t.val := by have h := idx_facts t; simp only [h]
  have h1 : win0_0.index t (1 : Fin 2) = 0 := by have h := idx_facts t; simp only [h]
  rewrite [View.read_apply]
  refine congrArg A (funext fun a => Fin.ext ?_)
  match a with
  | ⟨0, _⟩ => show win0_0.index t (0 : Fin 2) * 6400 + 1 * p.val = P.val; rw [h0, hP]; omega
  | ⟨1, _⟩ => show win0_0.index t (1 : Fin 2) * 128 + 1 * e.val = e.val; rw [h1]; omega

/-- Window 1 at point t, row p: row 6400·t + p of the array. -/
theorem read_edge (t : Fin cfg0.N) (A : FVec Ideal S800000x16 .f32) (p : Fin 6400) (e : Fin 16) (P : Fin 800000)
    (hP : P.val = 6400 * t.val + p.val) : ((cfg0.win 1).blk t).view.read (Elt Ideal) A (ix2 p e) = A (ix2 P e) := by
  have h0 : win0_1.index t (0 : Fin 2) = t.val := by have h := idx_facts t; simp only [h]
  have h1 : win0_1.index t (1 : Fin 2) = 0 := by have h := idx_facts t; simp only [h]
  rewrite [View.read_apply]
  refine congrArg A (funext fun a => Fin.ext ?_)
  match a with
  | ⟨0, _⟩ => show win0_1.index t (0 : Fin 2) * 6400 + 1 * p.val = P.val; rw [h0, hP]; omega
  | ⟨1, _⟩ => show win0_1.index t (1 : Fin 2) * 16 + 1 * e.val = e.val; rw [h1]; omega

/-- Window 2 at point t, row p: row 6400·t + p of the array. -/
theorem read_sum (t : Fin cfg0.N) (A : FVec Ideal S800000x128 .f32) (p : Fin 6400) (e : Fin 128) (P : Fin 800000)
    (hP : P.val = 6400 * t.val + p.val) : ((cfg0.win 2).blk t).view.read (Elt Ideal) A (ix2 p e) = A (ix2 P e) := by
  have h0 : win0_2.index t (0 : Fin 2) = t.val := by have h := idx_facts t; simp only [h]
  have h1 : win0_2.index t (1 : Fin 2) = 0 := by have h := idx_facts t; simp only [h]
  rewrite [View.read_apply]
  refine congrArg A (funext fun a => Fin.ext ?_)
  match a with
  | ⟨0, _⟩ => show win0_2.index t (0 : Fin 2) * 6400 + 1 * p.val = P.val; rw [h0, hP]; omega
  | ⟨1, _⟩ => show win0_2.index t (1 : Fin 2) * 128 + 1 * e.val = e.val; rw [h1]; omega

/-- Window 3 at point t, row p: row 6400·t + p of the array. -/
theorem read_msg (t : Fin cfg0.N) (A : FVec Ideal S800000x128 .f32) (p : Fin 6400) (e : Fin 128) (P : Fin 800000)
    (hP : P.val = 6400 * t.val + p.val) : ((cfg0.win 3).blk t).view.read (Elt Ideal) A (ix2 p e) = A (ix2 P e) := by
  have h0 : win0_3.index t (0 : Fin 2) = t.val := by have h := idx_facts t; simp only [h]
  have h1 : win0_3.index t (1 : Fin 2) = 0 := by have h := idx_facts t; simp only [h]
  rewrite [View.read_apply]
  refine congrArg A (funext fun a => Fin.ext ?_)
  match a with
  | ⟨0, _⟩ => show win0_3.index t (0 : Fin 2) * 6400 + 1 * p.val = P.val; rw [h0, hP]; omega
  | ⟨1, _⟩ => show win0_3.index t (1 : Fin 2) * 128 + 1 * e.val = e.val; rw [h1]; omega

/-- Window 4 reads its whole array at every point. -/
theorem read_wn (t : Fin cfg0.N) (A : FVec Ideal S128x128 .f32) : ((cfg0.win 4).blk t).view.read (Elt Ideal) A = A := by
  have h0 : win0_4.index t (0 : Fin 2) = 0 := by have h := idx_facts t; simp only [h]
  have h1 : win0_4.index t (1 : Fin 2) = 0 := by have h := idx_facts t; simp only [h]
  funext x
  rewrite [View.read_apply]
  refine congrArg A (funext fun a => Fin.ext ?_)
  match a with
  | ⟨0, _⟩ => show win0_4.index t (0 : Fin 2) * 128 + 1 * (x 0).val = (x 0).val; rw [h0]; omega
  | ⟨1, _⟩ => show win0_4.index t (1 : Fin 2) * 128 + 1 * (x 1).val = (x 1).val; rw [h1]; omega

/-- Window 5 reads its whole array at every point. -/
theorem read_we (t : Fin cfg0.N) (A : FVec Ideal S16x128 .f32) : ((cfg0.win 5).blk t).view.read (Elt Ideal) A = A := by
  have h0 : win0_5.index t (0 : Fin 2) = 0 := by have h := idx_facts t; simp only [h]
  have h1 : win0_5.index t (1 : Fin 2) = 0 := by have h := idx_facts t; simp only [h]
  funext x
  rewrite [View.read_apply]
  refine congrArg A (funext fun a => Fin.ext ?_)
  match a with
  | ⟨0, _⟩ => show win0_5.index t (0 : Fin 2) * 16 + 1 * (x 0).val = (x 0).val; rw [h0]; omega
  | ⟨1, _⟩ => show win0_5.index t (1 : Fin 2) * 128 + 1 * (x 1).val = (x 1).val; rw [h1]; omega

/-- Window 6 reads its whole array at every point. -/
theorem read_bi (t : Fin cfg0.N) (A : FVec Ideal S128 .f32) : ((cfg0.win 6).blk t).view.read (Elt Ideal) A = A := by
  have h0 : win0_6.index t (0 : Fin 1) = 0 := by have h := idx_facts t; simp only [h]
  funext x
  rewrite [View.read_apply]
  refine congrArg A (funext fun a => Fin.ext ?_)
  match a with
  | ⟨0, _⟩ => show win0_6.index t (0 : Fin 1) * 128 + 1 * (x 0).val = (x 0).val; rw [h0]; omega

/-- Window 7 reads its whole array at every point. -/
theorem read_wh (t : Fin cfg0.N) (A : FVec Ideal S128x128 .f32) : ((cfg0.win 7).blk t).view.read (Elt Ideal) A = A := by
  have h0 : win0_7.index t (0 : Fin 2) = 0 := by have h := idx_facts t; simp only [h]
  have h1 : win0_7.index t (1 : Fin 2) = 0 := by have h := idx_facts t; simp only [h]
  funext x
  rewrite [View.read_apply]
  refine congrArg A (funext fun a => Fin.ext ?_)
  match a with
  | ⟨0, _⟩ => show win0_7.index t (0 : Fin 2) * 128 + 1 * (x 0).val = (x 0).val; rw [h0]; omega
  | ⟨1, _⟩ => show win0_7.index t (1 : Fin 2) * 128 + 1 * (x 1).val = (x 1).val; rw [h1]; omega

/-- Window 8 reads its whole array at every point. -/
theorem read_bh (t : Fin cfg0.N) (A : FVec Ideal S128 .f32) : ((cfg0.win 8).blk t).view.read (Elt Ideal) A = A := by
  have h0 : win0_8.index t (0 : Fin 1) = 0 := by have h := idx_facts t; simp only [h]
  funext x
  rewrite [View.read_apply]
  refine congrArg A (funext fun a => Fin.ext ?_)
  match a with
  | ⟨0, _⟩ => show win0_8.index t (0 : Fin 1) * 128 + 1 * (x 0).val = (x 0).val; rw [h0]; omega

/-! ## The arrays the region finds, and the table of messages over them -/

/-- The nine arrays the windows read, each at its literal type. -/
abbrev featArr (c : Dev nD) : FVec Ideal S800000x128 .f32 := V m c (Pipeline.arrRef spec0 0)
abbrev edgeArr (c : Dev nD) : FVec Ideal S800000x16 .f32 := V m c (Pipeline.arrRef spec0 1)
abbrev sumArr (c : Dev nD) : FVec Ideal S800000x128 .f32 := V m c (Pipeline.arrRef spec0 2)
abbrev msgArr (c : Dev nD) : FVec Ideal S800000x128 .f32 := V m c (Pipeline.arrRef spec0 3)
abbrev wnArr (c : Dev nD) : FVec Ideal S128x128 .f32 := V m c (Pipeline.arrRef spec0 4)
abbrev weArr (c : Dev nD) : FVec Ideal S16x128 .f32 := V m c (Pipeline.arrRef spec0 5)
abbrev biArr (c : Dev nD) : FVec Ideal S128 .f32 := V m c (Pipeline.arrRef spec0 6)
abbrev whArr (c : Dev nD) : FVec Ideal S128x128 .f32 := V m c (Pipeline.arrRef spec0 7)
abbrev bhArr (c : Dev nD) : FVec Ideal S128 .f32 := V m c (Pipeline.arrRef spec0 8)

/-- The table of all messages over those arrays. -/
def messages (c : Dev nD) : FVec Ideal S800000x128 .f32 :=
  EdgeMessage.table (featArr m c) (edgeArr m c) (sumArr m c) (msgArr m c) (wnArr m c) (weArr m c) (biArr m c) (whArr m c) (bhArr m c)

/-- The table at a row and a feature. -/
theorem messages_apply (c : Dev nD) (P : Fin 800000) (q : Fin 128) :
    messages m c (ix2 P q) = EdgeMessage.value (featArr m c) (edgeArr m c) (sumArr m c) (msgArr m c) (wnArr m c) (weArr m c) (biArr m c) (whArr m c) (bhArr m c) P q := rfl

/-! ## What a point writes, and the array after the run -/

/-- What the body stores from ANY nine blocks, at (p, q): the message of edge p of those blocks. -/
theorem stored_apply (x0 : FVec Ideal S6400x128 .f32) (x1 : FVec Ideal S6400x16 .f32) (x2 x3 : FVec Ideal S6400x128 .f32)
    (x4 : FVec Ideal S128x128 .f32) (x5 : FVec Ideal S16x128 .f32) (x6 : FVec Ideal S128 .f32) (x7 : FVec Ideal S128x128 .f32)
    (x8 : FVec Ideal S128 .f32) (p : Fin 6400) (q : Fin 128) :
    out0_9 (F := Ideal) x0 x1 x2 x3 x4 x5 x6 x7 x8 (ix2 p q) = EdgeMessage.value x0 x1 x2 x3 x4 x5 x6 x7 x8 p q := by
  unfold out0_9
  rewrite [View.canon_unit_zero hz2]
  simp only [View.ld_unit_zero (S := S6400x128) hz2, View.ld_unit_zero (S := S6400x16) hz2, View.ld_unit_zero (S := S128x128) hz2,
    View.ld_unit_zero (S := S16x128) hz2, View.ld_unit_zero (S := S128) hz1]
  exact payload_apply x0 x1 x2 x3 x4 x5 x7 x6 x8 p q

/-- The message of edge p of point t's blocks is the message of edge 6400·t + p of the arrays. -/
theorem block_value (c : Dev nD) (t : Fin cfg0.N) (p : Fin 6400) (q : Fin 128) (P : Fin 800000) (hP : P.val = 6400 * t.val + p.val) :
    EdgeMessage.value (((cfg0.win 0).blk t).view.read (Elt Ideal) (featArr m c)) (((cfg0.win 1).blk t).view.read (Elt Ideal) (edgeArr m c))
        (((cfg0.win 2).blk t).view.read (Elt Ideal) (sumArr m c)) (((cfg0.win 3).blk t).view.read (Elt Ideal) (msgArr m c))
        (((cfg0.win 4).blk t).view.read (Elt Ideal) (wnArr m c)) (((cfg0.win 5).blk t).view.read (Elt Ideal) (weArr m c))
        (((cfg0.win 6).blk t).view.read (Elt Ideal) (biArr m c)) (((cfg0.win 7).blk t).view.read (Elt Ideal) (whArr m c))
        (((cfg0.win 8).blk t).view.read (Elt Ideal) (bhArr m c)) p q
      = EdgeMessage.value (featArr m c) (edgeArr m c) (sumArr m c) (msgArr m c) (wnArr m c) (weArr m c) (biArr m c) (whArr m c) (bhArr m c) P q := by
  rewrite [read_wn t (wnArr m c), read_we t (weArr m c), read_bi t (biArr m c), read_wh t (whArr m c), read_bh t (bhArr m c)]
  exact EdgeMessage.value_rows (featArr m c) (edgeArr m c) (sumArr m c) (msgArr m c) _ _ _ _
    (wnArr m c) (weArr m c) (biArr m c) (whArr m c) (bhArr m c) P p
    (fun e => read_feat t (featArr m c) p e P hP) (fun e => read_edge t (edgeArr m c) p e P hP)
    (fun e => read_sum t (sumArr m c) p e P hP) (fun e => read_msg t (msgArr m c) p e P hP) q

/-- WHAT POINT t WRITES BACK is block t of the table of messages. -/
theorem flushed_eq (c : Dev nD) (t : Fin cfg0.N) :
    (dats m 0 c).flushed 9 t = ((cfg0.win 9).blk t).view.read (Elt Ideal) (messages m c) := by
  rewrite [flushed9]
  have h0 : win0_9.index t (0 : Fin 2) = t.val := by have h := idx_facts t; simp only [h]
  have h1 : win0_9.index t (1 : Fin 2) = 0 := by have h := idx_facts t; simp only [h]
  have hN : cfg0.N = 125 := N_0
  funext j
  obtain ⟨p, q, rfl⟩ : ∃ (p : Fin 6400) (q : Fin 128), j = ix2 p q := ⟨j 0, j 1, eq_ix2 j⟩
  have hP : 6400 * t.val + p.val < 800000 := by have := t.isLt; have := p.isLt; omega
  have hemb : ((cfg0.win 9).blk t).view.emb (ix2 p q) = (ix2 (⟨6400 * t.val + p.val, hP⟩ : Fin 800000) q : S800000x128.Idx) := by
    funext a; apply Fin.ext
    match a with
    | ⟨0, _⟩ => show win0_9.index t (0 : Fin 2) * 6400 + 1 * p.val = 6400 * t.val + p.val; rw [h0]; omega
    | ⟨1, _⟩ => show win0_9.index t (1 : Fin 2) * 128 + 1 * q.val = q.val; rw [h1]; omega
  refine Eq.trans (b := out0_9 (F := Ideal) (iblk m c 0 t) (iblk m c 1 t) (iblk m c 2 t) (iblk m c 3 t) (iblk m c 4 t) (iblk m c 5 t)
    (iblk m c 6 t) (iblk m c 7 t) (iblk m c 8 t) (ix2 p q)) rfl ?_
  refine Eq.trans ?_ (c := messages m c (((cfg0.win 9).blk t).view.emb (ix2 p q))) rfl
  rewrite [hemb, messages_apply]
  refine (stored_apply _ _ _ _ _ _ _ _ _ p q).trans ?_
  exact block_value m c t p q ⟨6400 * t.val + p.val, hP⟩ rfl

/-- An index of the result array is in point t's block iff each coordinate is in the block's range on its axis. -/
theorem mem_blk (t : Fin cfg0.N) (i : S800000x128.Idx) :
    i ∈ ((cfg0.win 9).blk t).view.set ↔ ∀ a : Fin 2, win0_9.index t a * S6400x128.size a ≤ (i a).val ∧ (i a).val < win0_9.index t a * S6400x128.size a + S6400x128.size a := by
  show i ∈ ((View.whole main_v19).slice (win0_9.rect t)).set ↔ _
  rw [View.set_slice_whole, Rect.mem_set_unit]
  exact Iff.rfl

/-- Every row of the result lies in some point's block: row r in that of point r / 6400. -/
theorem cover (i : S800000x128.Idx) : ∃ t : Fin cfg0.N, (cfg0.win 9).flush t = true ∧ i ∈ ((cfg0.win 9).blk t).view.set := by
  have hN : cfg0.N = 125 := N_0
  have hi0 : (i 0).val < 800000 := (i 0).isLt
  have hi1 : (i 1).val < 128 := (i 1).isLt
  obtain ⟨t, ht⟩ : ∃ t : Fin cfg0.N, t.val = (i 0).val / 6400 := ⟨⟨(i 0).val / 6400, by rw [hN]; omega⟩, rfl⟩
  have h0 : win0_9.index t (0 : Fin 2) = t.val := by have h := idx_facts t; simp only [h]
  have h1 : win0_9.index t (1 : Fin 2) = 0 := by have h := idx_facts t; simp only [h]
  refine ⟨t, flush0_9 t, ?_⟩
  rw [mem_blk]
  intro a
  match a with
  | ⟨0, _⟩ => show win0_9.index t (0 : Fin 2) * 6400 ≤ (i 0).val ∧ (i 0).val < win0_9.index t (0 : Fin 2) * 6400 + 6400; rw [h0, ht]; omega
  | ⟨1, _⟩ => show win0_9.index t (1 : Fin 2) * 128 ≤ (i 1).val ∧ (i 1).val < win0_9.index t (1 : Fin 2) * 128 + 128; rw [h1]; omega

/-- THE RESULT ARRAY after the run is the table of messages. -/
theorem final (c : Dev nD) : (dats m 0 c).arrAt 9 cfg0.N = messages m c :=
  (dats m 0 c).arrAt_eq_of_cover 9 (messages m c) (fun t _ => flushed_eq m c t) cover

/-- The run, read: the result at the table of messages over the arrays the region finds, the arguments unchanged. -/
theorem run : θ_run defs (onTc (τ := τ) (main (F := Ideal))) ⟨m, fun _ => 0, ρ⟩ fun r => ∀ c : Dev nD,
      r.2.mem ((c : Thread nD τ).loc main_v19) = messages m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Hand

end
-- ==== Proof.HostPrefix.lean ====
/-
  What the program computes before it enters the kernel.

  Three things are prepared outside the kernel, by plain array operations. For every node, the messages of the edges that
  end at it are added up (`nodeSum`: a scatter-add of the messages, keyed by each edge's destination, into an array of
  zeros). For every edge, the features of its source node (`srcFeats`) and that sum at its source node (`nodeSumAtSrc`)
  are fetched: two gathers through one column of row numbers (`srcColumn`), the edge's source with a negative entry
  counted from the end of the node table. And the input weight is cut into its first 128 rows and its last 16. These are
  the arrays the kernel's windows read; nothing here looks inside a gather or a scatter — they are carried as they are.
-/
import proofs.«161080_j7876970021288_1_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The source node of each edge as a column of row numbers: a negative entry counts from the end of the node table. -/
def srcColumn (x7 : IVec S800000 32) : IVec S800000x1 32 :=
  broadcastInDim S800000x1 ![0] Facts₀.bcast_S800000_S800000x1_0
    (select (cmpi .slt x7 (broadcastInDim S800000 ![] Facts₀.bcast_S_S800000 (constantI S_ 32 0#32)))
      (addi x7 (broadcastInDim S800000 ![] Facts₀.bcast_S_S800000 (constantI S_ 32 50000#32))) x7)

/-- The features of each edge's source node. -/
def srcFeats (x0 : FVec F S50000x128 .f32) (x7 : IVec S800000 32) : FVec F S800000x128 .f32 :=
  Host.gather gather_S50000x128_S800000x1_S800000x128_1_0_n_n_0_1_1128 x0 (srcColumn x7)

/-- For each node, the sum of the messages of the edges that end there. -/
def nodeSum (x2 : FVec F S800000x128 .f32) (x8 : IVec S800000 32) : FVec F S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 x8) x2

/-- That sum read at each edge's source node. -/
def nodeSumAtSrc (x2 : FVec F S800000x128 .f32) (x7 x8 : IVec S800000 32) : FVec F S800000x128 .f32 :=
  Host.gather gather_S50000x128_S800000x1_S800000x128_1_0_n_n_0_1_1128 (nodeSum x2 x8) (srcColumn x7)

variable (m : (ℓ : Loc nD τ sig) → Buf (Elt F) ℓ)

theorem V_main_v9 (c : Dev nD) : (V m c main_v9 : S800000x128.Idx → Elt F .f32)
    = srcFeats (m ((c : Thread nD τ).loc main_arg0)) (m ((c : Thread nD τ).loc main_arg7)) := by
  dsimp only [V, hostOps0]
  after_results
  rfl

theorem V_main_v16 (c : Dev nD) : (V m c main_v16 : S800000x128.Idx → Elt F .f32)
    = nodeSumAtSrc (m ((c : Thread nD τ).loc main_arg2)) (m ((c : Thread nD τ).loc main_arg7)) (m ((c : Thread nD τ).loc main_arg8)) := by
  dsimp only [V, hostOps0]
  after_results_simp
  rfl

theorem V_main_v17 (c : Dev nD) : (V m c main_v17 : S128x128.Idx → Elt F .f32)
    = extractStridedSlice S128x128 ![0, 0] (m ((c : Thread nD τ).loc main_arg3)) Facts₀.slices_S144x128_S128x128_0_0 := by
  dsimp only [V, hostOps0]
  after_results

theorem V_main_v18 (c : Dev nD) : (V m c main_v18 : S16x128.Idx → Elt F .f32)
    = extractStridedSlice S16x128 ![128, 0] (m ((c : Thread nD τ).loc main_arg3)) Facts₀.slices_S144x128_S16x128_128_0 := by
  dsimp only [V, hostOps0]
  after_results

end Cert.KernelIdeal.Hand

end
-- ==== Proof.Reference.lean ====
/-
  The reference, read entry by entry.

  The reference fetches the same two per-edge arrays (source features, neighbour sum at the source), lays the source
  features and the edge's own features end to end into rows of 144 entries, multiplies those by the whole input weight,
  adds the input bias, then the hidden layer's product of "neighbour sum less own message", then the hidden bias. Entry
  (p, q) of its result is therefore the joined-rows form of `EdgeMessage.value` (`EdgeMessage.value_of_joined`): a
  product on the host at the ideal values is the plain sum over the contracted coordinate, a joined row reads its first
  128 entries from the source features and its last 16 from the edge features, and each bias, stretched along the rows,
  reads its q-th entry.
-/
import proofs.«161080_j7876970021288_1_alg».proof.Proof.Gen.ReferenceIdeal.Read
import proofs.«161080_j7876970021288_1_alg».proof.Proof.Spec
import Idealize.ShloMosaic.Lib.Pipeline.Value

noncomputable section

namespace Cert.ReferenceIdeal.Hand

open Cert.ReferenceIdeal Cert.ReferenceIdeal.Read Idealize.ShloMosaic Idealize.ShloMosaic.ValueIdx

/-- The first 128 entries of a joined row are the source node's features. -/
theorem joined_left (x0 : FVec Ideal S50000x128 .f32) (x1 : FVec Ideal S800000x16 .f32) (x7 : IVec S800000 32)
    (p : Fin 800000) (c : Fin 128) :
    val_main_v18 (F := Ideal) x0 x1 x7 (ix2 p (Fin.castAdd 16 c)) = val_main_v17 (F := Ideal) x0 x7 (ix2 p c) :=
  concatenate_pair_apply_left 1 _ _ Facts₀.concatenates_S800000x128_S800000x16_S800000x144_d1 (ix2 p (Fin.castAdd 16 c)) rfl (ix2 p c)
    (fun b => by match b with | ⟨0, _⟩ => rfl | ⟨1, _⟩ => rfl)

/-- The last 16 are the edge's own features. -/
theorem joined_right (x0 : FVec Ideal S50000x128 .f32) (x1 : FVec Ideal S800000x16 .f32) (x7 : IVec S800000 32)
    (p : Fin 800000) (c : Fin 16) :
    val_main_v18 (F := Ideal) x0 x1 x7 (ix2 p (Fin.natAdd 128 c)) = x1 (ix2 p c) :=
  concatenate_pair_apply_right 1 _ _ Facts₀.concatenates_S800000x128_S800000x16_S800000x144_d1 (ix2 p (Fin.natAdd 128 c)) rfl rfl (ix2 p c)
    (fun b hb => by
      match b with
      | ⟨0, _⟩ => rfl
      | ⟨1, _⟩ => exact absurd rfl hb)
    (by show c.val + 128 = 128 + c.val; omega)

/-- The input bias stretched along the rows reads its q-th entry. -/
theorem inBias_apply (x4 : FVec Ideal S128 .f32) (p : Fin 800000) (q : Fin 128) :
    val_main_v21 (F := Ideal) x4 (ix2 p q) = x4 (ix1 q) :=
  (val_main_v21_apply (F := Ideal) x4 (ix2 p q)).trans ((val_main_v20_apply (F := Ideal) x4 _).trans
    (congrArg x4 (funext fun a => by match a with | ⟨0, _⟩ => rfl)))

/-- So does the hidden bias. -/
theorem hidBias_apply (x6 : FVec Ideal S128 .f32) (p : Fin 800000) (q : Fin 128) :
    val_main_v26 (F := Ideal) x6 (ix2 p q) = x6 (ix1 q) :=
  (val_main_v26_apply (F := Ideal) x6 (ix2 p q)).trans ((val_main_v25_apply (F := Ideal) x6 _).trans
    (congrArg x6 (funext fun a => by match a with | ⟨0, _⟩ => rfl)))

/-- The reference's result at (p, q) is the message of edge p at feature q. -/
theorem result_apply (x0 : FVec Ideal S50000x128 .f32) (x1 : FVec Ideal S800000x16 .f32) (x2 : FVec Ideal S800000x128 .f32)
    (x3 : FVec Ideal S144x128 .f32) (x4 : FVec Ideal S128 .f32) (x5 : FVec Ideal S128x128 .f32) (x6 : FVec Ideal S128 .f32)
    (x7 x8 : IVec S800000 32) (p : Fin 800000) (q : Fin 128) :
    val_main_v27 (F := Ideal) x0 x1 x2 x3 x4 x5 x6 x7 x8 (ix2 p q)
      = EdgeMessage.value (val_main_v17 (F := Ideal) x0 x7) x1 (val_main_v9 (F := Ideal) x2 x7 x8) x2
          (EdgeMessage.nodeRows x3) (EdgeMessage.edgeRows x3) x4 x5 x6 p q := by
  refine Eq.trans ?_ (EdgeMessage.value_of_joined (val_main_v18 (F := Ideal) x0 x1 x7) (val_main_v17 (F := Ideal) x0 x7) x1
    (val_main_v9 (F := Ideal) x2 x7 x8) x2 x3 x4 x5 x6 p q (joined_left x0 x1 x7 p) (joined_right x0 x1 x7 p))
  show ((val_main_v19 (F := Ideal) x0 x1 x3 x7 (ix2 p q) + val_main_v21 (F := Ideal) x4 (ix2 p q))
      + val_main_v23 (F := Ideal) x2 x5 x7 x8 (ix2 p q)) + val_main_v26 (F := Ideal) x6 (ix2 p q) = _
  refine congrArg₂ (· + ·) (congrArg₂ (· + ·) (congrArg₂ (· + ·) ?_ ?_) ?_) ?_
  · exact SideBySide.hostProduct_apply _ rfl none _ _ p q
  · exact inBias_apply x4 p q
  · exact SideBySide.hostProduct_apply _ rfl none _ _ p q
  · exact hidBias_apply x6 p q

/-- The reference's whole result is the table of messages. -/
theorem result_eq (x0 : FVec Ideal S50000x128 .f32) (x1 : FVec Ideal S800000x16 .f32) (x2 : FVec Ideal S800000x128 .f32)
    (x3 : FVec Ideal S144x128 .f32) (x4 : FVec Ideal S128 .f32) (x5 : FVec Ideal S128x128 .f32) (x6 : FVec Ideal S128 .f32)
    (x7 x8 : IVec S800000 32) :
    val_main_v27 (F := Ideal) x0 x1 x2 x3 x4 x5 x6 x7 x8
      = EdgeMessage.table (val_main_v17 (F := Ideal) x0 x7) x1 (val_main_v9 (F := Ideal) x2 x7 x8) x2
          (EdgeMessage.nodeRows x3) (EdgeMessage.edgeRows x3) x4 x5 x6 := by
  funext i
  obtain ⟨p, q, rfl⟩ : ∃ (p : Fin 800000) (q : Fin 128), i = ix2 p q := ⟨i 0, i 1, eq_ix2 i⟩
  exact result_apply x0 x1 x2 x3 x4 x5 x6 x7 x8 p q

end Cert.ReferenceIdeal.Hand

end
-- ==== Proof.lean ====
/-
  One round of edge messages on a graph of 50000 nodes and 800000 edges: a tiled kernel against its plain reference.

  Both programs first add up, for every node, the messages of the edges that end there, and fetch for every edge the
  features of its source node and that sum at its source node. The new message of an edge is then

      W_in-layer(source features ‖ edge features) + b_in + W_hid-layer(neighbour sum − own message) + b_hid.

  The reference lays the source features and the edge features end to end (rows of 144 entries) and multiplies by the whole
  144×128 input weight. The kernel never forms the joined rows: it cuts the weight into its first 128 and its last 16 rows,
  works on 125 blocks of 6400 edges, and per block adds three products on the matrix unit (operands narrowed to bf16, the
  sums kept in f32) and the two biases. Over the extended reals a narrowing is the identity and a product is the plain sum
  over the contracted coordinate, so the two results differ only in how a sum of 144 + 128 + 2 terms is grouped — and
  addition of extended reals is commutative and associative whatever the entries are, so the precondition is not used.

  The pieces: `EdgeMessage` (Proof/Spec.lean) states the message entry by entry and the two laws; Proof/Payload.lean reads
  the kernel body's arithmetic at an entry; Proof/Blocks.lean goes from what each grid point writes to the whole result
  array; Proof/HostPrefix.lean names what the kernel's program prepares before the kernel; Proof/Reference.lean reads the
  reference at an entry. Here the two are set side by side. The scatter-add and the gathers are never opened: both programs
  apply the same ones to the same inputs.
-/
import proofs.«161080_j7876970021288_1_alg».proof.Defs
import proofs.«161080_j7876970021288_1_alg».proof.Proof.Gen.Kernel
import proofs.«161080_j7876970021288_1_alg».proof.Proof.Gen.Kernel.Skeleton
import proofs.«161080_j7876970021288_1_alg».proof.Proof.Gen.Kernel.Launch
import proofs.«161080_j7876970021288_1_alg».proof.Proof.Gen.Kernel.Points
import proofs.«161080_j7876970021288_1_alg».proof.Proof.Gen.Kernel.Frame
import proofs.«161080_j7876970021288_1_alg».proof.Proof.Gen.KernelIdeal
import proofs.«161080_j7876970021288_1_alg».proof.Proof.Gen.KernelIdeal.Skeleton
import proofs.«161080_j7876970021288_1_alg».proof.Proof.Gen.KernelIdeal.Launch
import proofs.«161080_j7876970021288_1_alg».proof.Proof.Gen.KernelIdeal.Points
import proofs.«161080_j7876970021288_1_alg».proof.Proof.Gen.KernelIdeal.Frame
import proofs.«161080_j7876970021288_1_alg».proof.Proof.Gen.ReferenceIdeal
import proofs.«161080_j7876970021288_1_alg».proof.Proof.Gen.Pre_finite_inputs
import proofs.«161080_j7876970021288_1_alg».proof.Proof.Gen.KernelIdeal.Value
import proofs.«161080_j7876970021288_1_alg».proof.Proof.Gen.ReferenceIdeal.Run
import proofs.«161080_j7876970021288_1_alg».proof.Proof.Gen.ReferenceIdeal.Read
import proofs.«161080_j7876970021288_1_alg».proof.Proof.Blocks
import proofs.«161080_j7876970021288_1_alg».proof.Proof.HostPrefix
import proofs.«161080_j7876970021288_1_alg».proof.Proof.Reference
import Idealize.ShloMosaic.Adequacy
import Idealize.ShloMosaic.Init

noncomputable section

namespace Cert.Proof

open Idealize.ShloMosaic Idealize.ShloMosaic.TcCoe Idealize.SL.Sem

/-! ## The two programs prepare the same arrays -/

section Prepared
variable {F : FTy → Type} [FloatOps F]

/-- The source features the kernel's program fetches are the reference's: one gather of the node features through one
    column of source rows. -/
theorem srcFeats_eq (x0 : FVec F Cert.KernelIdeal.S50000x128 .f32) (x7 : IVec Cert.KernelIdeal.S800000 32) :
    Cert.KernelIdeal.Hand.srcFeats (F := F) x0 x7 = Cert.ReferenceIdeal.Read.val_main_v17 (F := F) x0 x7 := rfl

/-- The neighbour sums at the source nodes likewise: one scatter-add of the messages, one gather. -/
theorem nodeSumAtSrc_eq (x2 : FVec F Cert.KernelIdeal.S800000x128 .f32) (x7 x8 : IVec Cert.KernelIdeal.S800000 32) :
    Cert.KernelIdeal.Hand.nodeSumAtSrc (F := F) x2 x7 x8 = Cert.ReferenceIdeal.Read.val_main_v9 (F := F) x2 x7 x8 := rfl

end Prepared

/-! ## The kernel's result over the launch memory -/

section KernelResult
open Cert.KernelIdeal Cert.KernelIdeal.Gen Cert.KernelIdeal.Hand

variable (m : (ℓ : Loc nD τ sig) → Buf (Elt Ideal) ℓ)

/-- The table of messages the kernel's result holds, over the arguments as launched. -/
abbrev result (c : Dev nD) : FVec Ideal S800000x128 .f32 :=
  EdgeMessage.table (Cert.ReferenceIdeal.Read.val_main_v17 (F := Ideal) (m ((c : Thread nD τ).loc main_arg0)) (m ((c : Thread nD τ).loc main_arg7)))
    (m ((c : Thread nD τ).loc main_arg1))
    (Cert.ReferenceIdeal.Read.val_main_v9 (F := Ideal) (m ((c : Thread nD τ).loc main_arg2)) (m ((c : Thread nD τ).loc main_arg7)) (m ((c : Thread nD τ).loc main_arg8)))
    (m ((c : Thread nD τ).loc main_arg2))
    (EdgeMessage.nodeRows (m ((c : Thread nD τ).loc main_arg3))) (EdgeMessage.edgeRows (m ((c : Thread nD τ).loc main_arg3)))
    (m ((c : Thread nD τ).loc main_arg4)) (m ((c : Thread nD τ).loc main_arg5)) (m ((c : Thread nD τ).loc main_arg6))

/-- The arrays the region finds are the prepared ones, so the kernel's table is `result`. -/
theorem messages_eq (c : Dev nD) : messages m c = result m c := by
  unfold messages
  show EdgeMessage.table (V m c main_v9) (V m c main_arg1) (V m c main_v16) (V m c main_arg2) (V m c main_v17) (V m c main_v18)
    (V m c main_arg4) (V m c main_arg5) (V m c main_arg6) = _
  rewrite [V_main_v9 m c, V_main_v16 m c, V_main_v17 m c, V_main_v18 m c, V_main_arg1 m c, V_main_arg2 m c, V_main_arg4 m c,
    V_main_arg5 m c, V_main_arg6 m c, srcFeats_eq, nodeSumAtSrc_eq]
  rfl

end KernelResult

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the table of messages (Proof/Blocks.lean), the reference's at the same table read
    the joined-rows way (Proof/Reference.lean), over arguments that agree. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (messages_eq m c), (h c).2⟩)
      (Cert.KernelIdeal.Hand.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [e0, e1, e2, e3, e4, e5, e6, e7, e8, Cert.ReferenceIdeal.Read.val_main_v27_eq, Cert.ReferenceIdeal.Hand.result_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
